-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S128x128x128 : Shape := ⟨3, ![128, 128, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S128x128x128 : S_.BroadcastsInDim S128x128x128 (![] : Fin 0 → Fin S128x128x128.rank)
  reducesTo_S128x128x128_S_d0_1_2 : S128x128x128.ReducesTo [0, 1, 2] S_

variable [Facts]

def fn {F : FTy → Type} [FloatOps F] (main_arg0 : FVec F S64x32x128 .f32) (main_arg1 : FVec F S128x128x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S128x128x128 .f32 := Host.absf main_arg1
  let main_cst_0 : FVec F S_ .f32 := constant S_ .f32 0x7F800000#32
  let main_v5 : FVec F S128x128x128 .f32 := broadcastInDim S128x128x128 ![] bcast_S_S128x128x128 main_cst_0
  let main_v6 : IVec S128x128x128 1 := cmpf .olt main_v4 main_v5
  let main_c_1 : IVec S_ 1 := constantI S_ 1 1#1
  let main_v7 : IVec S_ 1 := (fun x v => Host.reduce IntOp.andi x v reducesTo_S128x128x128_S_d0_1_2 h_S_) main_v6 main_c_1
  let main_v8 : IVec S_ 1 := andi main_v3 main_v7
  main_v8
-- ==== Kernel.lean ====
abbrev S64x32x128 : Shape := ⟨3, ![64, 32, 128]⟩
abbrev S128x128x128 : Shape := ⟨3, ![128, 128, 128]⟩
abbrev S64x128 : Shape := ⟨2, ![64, 128]⟩
abbrev S8x32x128 : Shape := ⟨3, ![8, 32, 128]⟩
abbrev S8x128 : Shape := ⟨2, ![8, 128]⟩
abbrev S256x128 : Shape := ⟨2, ![256, 128]⟩
abbrev S128x32x128 : Shape := ⟨3, ![128, 32, 128]⟩
abbrev S4096x128 : Shape := ⟨2, ![4096, 128]⟩
abbrev S256x4096 : Shape := ⟨2, ![256, 4096]⟩
abbrev S256x128x32 : Shape := ⟨3, ![256, 128, 32]⟩
abbrev S_ : Shape := ⟨0, ![]⟩
abbrev S64 : Shape := ⟨1, ![64]⟩
abbrev S64x1 : Shape := ⟨2, ![64, 1]⟩

abbrev nBuf : Space → Nat
  | .hbm => 25
  | .vmem => 6
  | .smem => 0
  | _ => 0

abbrev bufTy : (tb : Table) → Fin (tcTables nBuf tb) → BufTy
  | .hbm, ⟨0, _⟩ => ⟨S64x32x128, .f32⟩
  | .hbm, ⟨1, _⟩ => ⟨S128x128x128, .f32⟩
  | .hbm, ⟨2, _⟩ => ⟨S64x128, .f32⟩
  | .hbm, ⟨3, _⟩ => ⟨S_, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S64x128, .f32⟩
  | .hbm, ⟨10, _⟩ => ⟨S64x128, .f32⟩
  | .hbm, ⟨11, _⟩ => ⟨S64x128, .f32⟩
  | .hbm, ⟨12, _⟩ => ⟨S_, .f32⟩
  | .hbm, ⟨13, _⟩ => ⟨S64, .f32⟩
  | .hbm, ⟨14, _⟩ => ⟨S64x1, .f32⟩
  | .hbm, ⟨15, _⟩ => ⟨S64x1, .f32⟩
  | .hbm, ⟨16, _⟩ => ⟨S64x128, .f32⟩
  | .hbm, ⟨17, _⟩ => ⟨S64x128, .f32⟩
  | .hbm, ⟨18, _⟩ => ⟨S64x1, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S8x32x128, .f32⟩
  | .local _ .vmem, ⟨1, _⟩ => ⟨S8x32x128, .f32⟩
  | .local _ .vmem, ⟨2, _⟩ => ⟨S128x128x128, .f32⟩
  | .local _ .vmem, ⟨3, _⟩ => ⟨S8x128, .f32⟩
  | .local _ .vmem, ⟨4, _⟩ => ⟨S8x128, .f32⟩
  | .local _ .vmem, ⟨5, _⟩ => ⟨S256x128, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x32x128_S8x32x128_0_0_0 : ∀ a, (![0, 0, 0] : Fin 3 → Nat) a + S8x32x128.size a ≤ S8x32x128.size a
  h_S8x32x128 : 0 < S8x32x128.numel
  bitsLt_bf16_f32 : FTy.bits .bf16 < FTy.bits .f32
  shapeCasts_S8x32x128_S256x128 : S8x32x128.ShapeCasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128x128_S128x32x128_0_0_0 : ∀ a, (![0, 0, 0] : Fin 3 → Nat) a + S128x32x128.size a ≤ S128x128x128.size a
  h_S128x32x128 : 0 < S128x32x128.numel
  shapeCasts_S128x32x128_S4096x128 : S128x32x128.ShapeCasts S4096x128
  shapeCasts_S256x4096_S256x128x32 : S256x4096.ShapeCasts S256x128x32
  reduces_S256x128x32_S256x128 : S256x128x32.Reduces [2] S256x128
  inb_S128x128x128_S128x32x128_0_32_0 : ∀ a, (![0, 32, 0] : Fin 3 → Nat) a + S128x32x128.size a ≤ S128x128x128.size a
  inb_S128x128x128_S128x32x128_0_64_0 : ∀ a, (![0, 64, 0] : Fin 3 → Nat) a + S128x32x128.size a ≤ S128x128x128.size a
  inb_S128x128x128_S128x32x128_0_96_0 : ∀ a, (![0, 96, 0] : Fin 3 → Nat) a + S128x32x128.size a ≤ S128x128x128.size a
  shapeCasts_S256x128_S8x32x128 : S256x128.ShapeCasts S8x32x128
  reduces_S8x32x128_S8x128 : S8x32x128.Reduces [1] S8x128
  inb_S8x128_S8x128_0_0 : ∀ a, (![0, 0] : Fin 2 → Nat) a + S8x128.size a ≤ S8x128.size a
  h_S8x128 : 0 < S8x128.numel
  reducesTo_S64x128_S64_d1 : S64x128.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S64x128_S64x1_0_0 : S64x128.Slices ![0, 0] S64x1
  shapeCasts_S64x1_S64 : S64x1.ShapeCasts S64
  reducesTo_S64_S_d0 : S64.ReducesTo [0] S_
  dot_S256x128_S4096x128_S256x4096_1_1_0_0_n_n_wf : DotDims.WF S256x128 S4096x128 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S128x128x128.size a
  hwx0_1 : ∀ i : grid0.Coords, EltTy.bits .f32 = 32 ∨ (Rect.block (s := S128x128x128) S128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S128x128x128 : Shape := ⟨3, ![128, 128, 128]⟩
abbrev S128x128x64x32 : Shape := ⟨4, ![128, 128, 64, 32]⟩
abbrev S64x128x32x128 : Shape := ⟨4, ![64, 128, 32, 128]⟩
abbrev S_ : Shape := ⟨0, ![]⟩
abbrev S64x128x32 : Shape := ⟨3, ![64, 128, 32]⟩
abbrev S64x128 : Shape := ⟨2, ![64, 128]⟩
abbrev S64 : Shape := ⟨1, ![64]⟩
abbrev S64x1 : Shape := ⟨2, ![64, 1]⟩

abbrev nBuf : Space → Nat
  | .hbm => 36
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S128x128x128, .f32⟩
  | .hbm, ⟨2, _⟩ => ⟨S128x128x64x32, .f32⟩
  | .hbm, ⟨3, _⟩ => ⟨S64x128x32x128, .f32⟩
  | .hbm, ⟨4, _⟩ => ⟨S_, .f32⟩
  | .hbm, ⟨5, _⟩ => ⟨S64x128x32, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S64x128, .f32⟩
  | .hbm, ⟨28, _⟩ => ⟨S64x128, .f32⟩
  | .hbm, ⟨29, _⟩ => ⟨S64x1, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  transposes_S128x128x64x32_S64x128x32x128_2_0_3_1 : S128x128x64x32.Transposes [2, 0, 3, 1] S64x128x32x128
  reducesTo_S64x128x32x128_S64x128x32_d3 : S64x128x32x128.ReducesTo [3] S64x128x32
  h_S_ : 0 < S_.numel
  reducesTo_S64x128x32_S64x128_d2 : S64x128x32.ReducesTo [2] S64x128
  bcast_S_S64x128 : S_.BroadcastsInDim S64x128 (![] : Fin 0 → Fin S64x128.rank)
  reducesTo_S64x128_S64_d1 : S64x128.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S64x128_S64x1_0_0 : S64x128.Slices ![0, 0] S64x1
  shapeCasts_S64x1_S64 : S64x1.ShapeCasts S64
  reducesTo_S64_S_d0 : S64.ReducesTo [0] S_
  dot_S128x128x128_S64x32x128_S128x128x64x32_2_2_01_01_n_n_wf : DotDims.WF S128x128x128 S64x32x128 S128x128x64x32 [2] [2] [0, 1] [0, 1] [] []

variable [Facts₀]

def dot_S128x128x128_S64x32x128_S128x128x64x32_2_2_01_01_n_n : DotDims S128x128x128 S64x32x128 S128x128x64x32 where
  lhsContracting := [2]
  rhsContracting := [2]
  lhsNonContracting := [0, 1]
  rhsNonContracting := [0, 1]
  lhsBatch := []
  rhsBatch := []
  wf := dot_S128x128x128_S64x32x128_S128x128x64x32_2_2_01_01_n_n_wf

class Facts : Prop extends Facts₀ where

variable [Facts]
-- ==== Proof.BodyRun.lean ====
/-
  What one grid point's body leaves in the score tile, as ONE pure term of the two blocks it was given.

  The body keeps a running maximum in a scratch array: it fills the scratch with minus infinity, then four times
  loads the scratch, combines it with the best match over one run of 32 document tokens, and stores it back; at
  the end it loads the scratch once more and writes the tile from it.  Every store covers the whole scratch, so
  every load reads exactly what the store before it wrote, and the chain of loads and stores collapses to the
  nested term `tileOf` below.
-/
import proofs.«169113_j74878459838967_1_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

/-- A load of the whole buffer after a store of the whole buffer (whatever was stored before) reads the value
    just stored. -/
theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨⟨Rect.unit _ S.size inb, w⟩, List.mem_cons_self, View.mem_set_unit_zero rfl inb y⟩),
    View.canon_cons_unit_zero rfl, View.ld_unit_zero rfl]

/-- Document tokens 0–31, 32–63, 64–95, 96–127 of every candidate, out of the whole document block. -/
abbrev docRun0 (x1 : Vec F S128x128x128 .f32) : Vec F S128x32x128 .f32 :=
  View.ld x1 (Rect.unit (s := S128x128x128) ![0, 0, 0] S128x32x128.size inb_S128x128x128_S128x32x128_0_0_0)
abbrev docRun1 (x1 : Vec F S128x128x128 .f32) : Vec F S128x32x128 .f32 :=
  View.ld x1 (Rect.unit (s := S128x128x128) ![0, 32, 0] S128x32x128.size inb_S128x128x128_S128x32x128_0_32_0)
abbrev docRun2 (x1 : Vec F S128x128x128 .f32) : Vec F S128x32x128 .f32 :=
  View.ld x1 (Rect.unit (s := S128x128x128) ![0, 64, 0] S128x32x128.size inb_S128x128x128_S128x32x128_0_64_0)
abbrev docRun3 (x1 : Vec F S128x128x128 .f32) : Vec F S128x32x128 .f32 :=
  View.ld x1 (Rect.unit (s := S128x128x128) ![0, 96, 0] S128x32x128.size inb_S128x128x128_S128x32x128_0_96_0)

/-- The running maximum after one, two, three and four runs. -/
def best1 (x0 : Vec F S8x32x128 .f32) (x1 : Vec F S128x128x128 .f32) : FVec F S256x128 .f32 :=
  k0_pay6 x0 (docRun0 x1) (k0_pay5 (F := F))
def best2 (x0 : Vec F S8x32x128 .f32) (x1 : Vec F S128x128x128 .f32) : FVec F S256x128 .f32 :=
  k0_pay7 x0 (docRun1 x1) (best1 x0 x1)
def best3 (x0 : Vec F S8x32x128 .f32) (x1 : Vec F S128x128x128 .f32) : FVec F S256x128 .f32 :=
  k0_pay1 (k0_pay4 x0) (docRun2 x1) (best2 x0 x1)
def best4 (x0 : Vec F S8x32x128 .f32) (x1 : Vec F S128x128x128 .f32) : FVec F S256x128 .f32 :=
  k0_pay2 (k0_pay4 x0) (docRun3 x1) (best3 x0 x1)

/-- The score tile the body writes, of the query block and the document block. -/
def tileOf (x0 : Vec F S8x32x128 .f32) (x1 : Vec F S128x128x128 .f32) : FVec F S8x128 .f32 :=
  k0_pay3 (best4 x0 x1)

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

variable (c : Dev nD) (arg1 : Memref sig .tc .vmem S8x32x128 .f32) (harg1 : arg1.IsWhole)
  (arg2 : Memref sig .tc .vmem S128x128x128 .f32) (harg2 : arg2.IsWhole)
  (arg4 : Memref sig .tc .vmem S256x128 .f32) (x0 : Vec F S8x32x128 .f32) (x1 : Vec F S128x128x128 .f32)

/-- The query block as loaded. -/
theorem query_loaded :
    View.readAt (Elt F) arg1.view (Rect.unit (s := S8x32x128) ![0, 0, 0] S8x32x128.size inb_S8x32x128_S8x32x128_0_0_0).toLoadRect
      (harg1.unread x0) = x0 := by
  rw [View.readAt_eq_ld, harg1.read_unread, View.ld_unit_zero (S := S8x32x128) hz3]

theorem read1 : kernelRun0_A.sl.v13 (F := F) c arg4 = k0_pay5 (F := F) := by
  unfold kernelRun0_A.sl.v13 kernelRun0_A.sl.HS0_1
  exact View.readCov_unit_zero (S := S256x128) _ hz2 _ _

theorem read2 : kernelRun0_A.sl.v24 c arg1 harg1 arg2 harg2 arg4 x0 x1 = best1 x0 x1 := by
  unfold kernelRun0_A.sl.v24 kernelRun0_A.sl.HS0_2
  rw [readCov_cons_whole (S := S256x128) _ hz2, read1, query_loaded, View.readAt_eq_ld, harg2.read_unread]
  rfl

theorem read3 : kernelRun0_A.sl.v35 c arg1 harg1 arg2 harg2 arg4 x0 x1 = best2 x0 x1 := by
  unfold kernelRun0_A.sl.v35 kernelRun0_A.sl.HS0_3
  rw [readCov_cons_whole (S := S256x128) _ hz2, read2, query_loaded, View.readAt_eq_ld, harg2.read_unread]
  rfl

/-- The query block flattened to 256 token rows, as the first part of the body hands it on. -/
theorem rows_loaded : kernelRun0_A.sl.r c arg1 harg1 x0 = k0_pay4 x0 := by
  unfold kernelRun0_A.sl.r
  rw [query_loaded]

theorem read4 : kernelRun0_A.sl.v46 c arg1 harg1 arg2 harg2 arg4 x0 x1 = best3 x0 x1 := by
  unfold kernelRun0_A.sl.v46 kernelRun0_A.sl.HS0_4
  rw [readCov_cons_whole (S := S256x128) _ hz2, read3, rows_loaded, View.readAt_eq_ld, harg2.read_unread]
  rfl

theorem read5 : kernelRun0_A.sl.v51 c arg1 harg1 arg2 harg2 arg4 x0 x1 = best4 x0 x1 := by
  unfold kernelRun0_A.sl.v51 kernelRun0_A.sl.HS0_5
  rw [readCov_cons_whole (S := S256x128) _ hz2, read4, rows_loaded, View.readAt_eq_ld, harg2.read_unread]
  rfl

/-- What the body leaves in the score tile's buffer is `tileOf` of the two blocks, whatever the grid point, the
    buffers, and the contents the scratch and the tile's buffer had before. -/
theorem out_eq (i : grid0.Coords) (arg3 : Memref sig .tc .vmem S8x128 .f32) (harg3 : arg3.IsWhole) (harg4 : arg4.IsWhole) :
    out0_A_2 c i arg1 harg1 arg2 harg2 arg3 harg3 arg4 harg4 x0 x1 = tileOf x0 x1 := by
  unfold out0_A_2
  rw [View.read_writes_eq_canon _ _ _ (cover0_A_2 c i arg1 harg1 arg2 harg2 arg3 harg3 arg4 harg4 x0 x1)]
  unfold kernelRun0_A
  dsimp only
  rw [View.canon_unit_zero (S := S8x128) hz2, read5]
  rfl

end Cert.KernelIdeal.Body

end
-- ==== Proof.MaxSimSpec.lean ====
/-
  Late-interaction scoring, as one function of the two embedding arrays over the extended reals.

  A query `b` has 32 token vectors `q[b, s, ·]` of dimension 128, a document candidate `c` has 128 token
  vectors `d[c, t, ·]`.  The similarity of a query token and a document token is their inner product; each query
  token keeps its best-matching document token (the maximum over `t`); a query's score against a candidate is
  the mean of those maxima over its 32 tokens, divided by the temperature.

  The maximum over the 128 document tokens may be taken in four consecutive runs of 32 and the four partial maxima
  combined: on a linear order with a bottom element that is the same maximum (`runs_max`).
-/
import Idealize.ShloMosaic.PureOps.Ideal.Laws
import Idealize.ShloMosaic.Lib.ValueIdx

noncomputable section

namespace Cert.LateInteraction

open Idealize.ShloMosaic Idealize.ShloMosaic.ValueIdx

abbrev QueryShape : Shape := ⟨3, ![64, 32, 128]⟩
abbrev DocShape : Shape := ⟨3, ![128, 128, 128]⟩
abbrev ScoreShape : Shape := ⟨2, ![64, 128]⟩

/-- The inner product over the 128 embedding coordinates of a query token `u` and document token `t` of
    candidate `c`. -/
def tokenSim (u : Fin 128 → EReal) (d : DocShape.Idx → EReal) (c : Fin 128) (t : Fin 128) : EReal :=
  ∑ h : Fin 128, u h * d (ix3 c t h)

/-- A query token's best match among the 128 document tokens of candidate `c`. -/
def bestMatch (u : Fin 128 → EReal) (d : DocShape.Idx → EReal) (c : Fin 128) : EReal :=
  (Finset.univ : Finset (Fin 128)).fold max ⊥ (tokenSim u d c)

/-- The score of query `b` against candidate `c`: the sum of the 32 tokens' best matches, divided by the token
    count 32.0 and by the temperature (the f32 nearest 0.05), both kept as their binary words. -/
def scoreAt (q : QueryShape.Idx → EReal) (d : DocShape.Idx → EReal) (b : Fin 64) (c : Fin 128) : EReal :=
  Ideal.div (Ideal.div (∑ s : Fin 32, bestMatch (fun h => q (ix3 b s h)) d c) (Ideal.ofBits .f32 0x42000000#32))
    (Ideal.ofBits .f32 0x3D4CCCCD#32)

/-- The score matrix. -/
def score (q : QueryShape.Idx → EReal) (d : DocShape.Idx → EReal) : ScoreShape.Idx → EReal :=
  fun i => scoreAt q d (i 0) (i 1)

theorem score_ix2 (q : QueryShape.Idx → EReal) (d : DocShape.Idx → EReal) (b : Fin 64) (c : Fin 128) :
    score q d (ix2 b c) = scoreAt q d b c := rfl

/-! ## A maximum over 128 taken in four runs of 32 -/

/-- The 32 consecutive values of `g` from position `o`. -/
def run32 (g : Fin 128 → EReal) (o : Nat) (ho : o + 32 ≤ 128) (e : Fin 32) : EReal :=
  g ⟨o + e.val, by have := e.isLt; omega⟩

/-- The maximum of one run, from the bottom element. -/
def runMax (g : Fin 128 → EReal) (o : Nat) (ho : o + 32 ≤ 128) : EReal :=
  (Finset.univ : Finset (Fin 32)).fold max ⊥ (run32 g o ho)

theorem fold_max_eq_sup {ι : Type} [Fintype ι] (f : ι → EReal) :
    (Finset.univ : Finset ι).fold max ⊥ f = Finset.univ.sup f := rfl

/-- A running maximum started at the bottom element and fed the four runs' maxima in order is the maximum of all
    128 values. -/
theorem runs_max (g : Fin 128 → EReal) :
    max (max (max (max ⊥ (runMax g 0 (by decide))) (runMax g 32 (by decide))) (runMax g 64 (by decide)))
        (runMax g 96 (by decide))
      = (Finset.univ : Finset (Fin 128)).fold max ⊥ g := by
  simp only [runMax, fold_max_eq_sup]
  apply le_antisymm
  · refine max_le (max_le (max_le (max_le bot_le ?_) ?_) ?_) ?_ <;>
      exact Finset.sup_le fun e _ => Finset.le_sup (f := g) (Finset.mem_univ _)
  · refine Finset.sup_le fun t _ => ?_
    have ht := t.isLt
    by_cases h0 : t.val < 32
    · refine le_max_of_le_left (le_max_of_le_left (le_max_of_le_left (le_max_of_le_right ?_)))
      exact (le_of_eq (by simp [run32])).trans
        (Finset.le_sup (f := run32 g 0 (by decide)) (Finset.mem_univ (⟨t.val, h0⟩ : Fin 32)))
    by_cases h1 : t.val < 64
    · refine le_max_of_le_left (le_max_of_le_left (le_max_of_le_right ?_))
      exact (le_of_eq (by simp only [run32]; congr 1; exact Fin.ext (by show t.val = 32 + (t.val - 32); omega))).trans
        (Finset.le_sup (f := run32 g 32 (by decide)) (Finset.mem_univ (⟨t.val - 32, by omega⟩ : Fin 32)))
    by_cases h2 : t.val < 96
    · refine le_max_of_le_left (le_max_of_le_right ?_)
      exact (le_of_eq (by simp only [run32]; congr 1; exact Fin.ext (by show t.val = 64 + (t.val - 64); omega))).trans
        (Finset.le_sup (f := run32 g 64 (by decide)) (Finset.mem_univ (⟨t.val - 64, by omega⟩ : Fin 32)))
    · refine le_max_of_le_right ?_
      exact (le_of_eq (by simp only [run32]; congr 1; exact Fin.ext (by show t.val = 96 + (t.val - 96); omega))).trans
        (Finset.le_sup (f := run32 g 96 (by decide)) (Finset.mem_univ (⟨t.val - 96, by omega⟩ : Fin 32)))

/-- The f32 word of minus infinity is the bottom element. -/
theorem ofBits_neg_inf : Ideal.ofBits .f32 0xFF800000#32 = (⊥ : EReal) := by simp [Ideal.ofBits, Ideal.ieee]

end Cert.LateInteraction

end
-- ==== Proof.TileValue.lean ====
/-
  The score tile one grid point writes, entry by entry.

  The body flattens its 8 queries × 32 tokens to 256 token rows, and for each run of 32 document tokens flattens
  128 candidates × 32 tokens to 4096 document rows, multiplies rows by rows (a contraction over the 128
  embedding coordinates), regroups the 4096 columns as 128 candidates × 32 tokens and takes the maximum over
  the 32.  Row 32·b + s is token s of query b and column 32·c + e is token e of candidate c in the run, so the
  maximum is that query token's best match within the run; the running maximum over the four runs, started at
  minus infinity, is its best match among all 128 document tokens (`runs_max`).  The tile entry sums the 32
  tokens' best matches and divides by 32.0 and by the temperature.
-/
import proofs.«169113_j74878459838967_1_alg».proof.Proof.BodyRun
import proofs.«169113_j74878459838967_1_alg».proof.Proof.MaxSimSpec
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal Cert.KernelIdeal.Gen Cert.KernelIdeal.Body Cert.LateInteraction

/-! ## The contraction of token rows with document rows, at an entry -/

theorem lhs_dot_0 (i : S256x4096.Idx) (q : dot_S256x128_S4096x128_S256x4096_1_1_0_0_n_n.contr.Idx) :
    (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
theorem lhs_dot_1 (i : S256x4096.Idx) (q : dot_S256x128_S4096x128_S256x4096_1_1_0_0_n_n.contr.Idx) :
    (dot_S256x128_S4096x128_S256x4096_1_1_0_0_n_n.lhsIdx i q 1).val = (q ⟨0, by decide⟩).val :=
  dot_S256x128_S4096x128_S256x4096_1_1_0_0_n_n.lhsIdx_val_of_single rfl i q
theorem rhs_dot_0 (i : S256x4096.Idx) (q : dot_S256x128_S4096x128_S256x4096_1_1_0_0_n_n.contr.Idx) :
    (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
theorem rhs_dot_1 (i : S256x4096.Idx) (q : dot_S256x128_S4096x128_S256x4096_1_1_0_0_n_n.contr.Idx) :
    (dot_S256x128_S4096x128_S256x4096_1_1_0_0_n_n.rhsIdx i q 1).val = (q ⟨0, by decide⟩).val :=
  dot_S256x128_S4096x128_S256x4096_1_1_0_0_n_n.rhsIdx_val_of_single rfl i q

/-- Entry (p, n) of the product of the token rows with the document rows, into a zero accumulator: the inner
    product of row p with row n. -/
theorem rows_product_apply (l : FVec Ideal S256x128 .bf16) (r : FVec Ideal S4096x128 .bf16) (p : Fin 256) (n : Fin 4096) :
    matmul dot_S256x128_S4096x128_S256x4096_1_1_0_0_n_n none l r (constant S256x4096 .f32 0x00000000#32) (ix2 p n)
      = ∑ k : Fin 128, l (ix2 p k) * r (ix2 n k) := by
  simp only [matmul]
  rw [Ideal.matmul_constant_zero_apply, ← Equiv.sum_comp (ValueIdx.contrEquiv1 dot_S256x128_S4096x128_S256x4096_1_1_0_0_n_n 128 rfl rfl).symm]
  refine Finset.sum_congr rfl fun k _ => ?_
  have hk := ValueIdx.contrEquiv1_symm_val dot_S256x128_S4096x128_S256x4096_1_1_0_0_n_n 128 rfl rfl k
  have el : dot_S256x128_S4096x128_S256x4096_1_1_0_0_n_n.lhsIdx (ix2 p n) ((ValueIdx.contrEquiv1 dot_S256x128_S4096x128_S256x4096_1_1_0_0_n_n 128 rfl rfl).symm k) = ix2 p k := funext fun a => Fin.ext (by
    match a with
    | ⟨0, _⟩ => exact lhs_dot_0 _ _
    | ⟨1, _⟩ => exact (lhs_dot_1 _ _).trans hk)
  have er : dot_S256x128_S4096x128_S256x4096_1_1_0_0_n_n.rhsIdx (ix2 p n) ((ValueIdx.contrEquiv1 dot_S256x128_S4096x128_S256x4096_1_1_0_0_n_n 128 rfl rfl).symm k) = ix2 n k := funext fun a => Fin.ext (by
    match a with
    | ⟨0, _⟩ => exact rhs_dot_0 _ _
    | ⟨1, _⟩ => exact (rhs_dot_1 _ _).trans hk)
  rw [el, er]

/-! ## Rows and columns by their coordinates -/

/-- Token `s` of the block's query `b` is row 32·b + s. -/
abbrev tokenRow (b : Fin 8) (s : Fin 32) : Fin 256 := ⟨b.val * 32 + s.val, by have := b.isLt; have := s.isLt; omega⟩
/-- Token `e` (within a run) of candidate `c` is document row, and product column, 32·c + e. -/
abbrev docRow (c : Fin 128) (e : Fin 32) : Fin 4096 := ⟨c.val * 32 + e.val, by have := c.isLt; have := e.isLt; omega⟩

theorem token_rows_apply (x0 : Vec Ideal S8x32x128 .f32) (b : Fin 8) (s : Fin 32) (h : Fin 128) :
    k0_pay4 (F := Ideal) x0 (ix2 (tokenRow b s) h) = x0 (ix3 b s h) := by
  unfold k0_pay4
  exact shapeCast_apply _ shapeCasts_S8x32x128_S256x128 _ (ix3 b s h)
    (by rw [Shape.rowMajor_val_three, Shape.rowMajor_val_two]; rfl)

theorem doc_rows_apply (dj : Vec Ideal S128x32x128 .f32) (c : Fin 128) (e : Fin 32) (h : Fin 128) :
    shapeCast S4096x128 (truncf .bf16 dj bitsLt_bf16_f32 : FVec Ideal S128x32x128 .bf16) shapeCasts_S128x32x128_S4096x128
        (ix2 (docRow c e) h) = dj (ix3 c e h) :=
  shapeCast_apply _ shapeCasts_S128x32x128_S4096x128 _ (ix3 c e h)
    (by rw [Shape.rowMajor_val_three, Shape.rowMajor_val_two]; rfl)

theorem regroup_apply (mm : FVec Ideal S256x4096 .f32) (p : Fin 256) (c : Fin 128) (e : Fin 32) :
    shapeCast S256x128x32 mm shapeCasts_S256x4096_S256x128x32 (ix3 p c e) = mm (ix2 p (docRow c e)) :=
  shapeCast_apply _ shapeCasts_S256x4096_S256x128x32 _ (ix2 p (docRow c e))
    (by rw [Shape.rowMajor_val_three, Shape.rowMajor_val_two]
        show p.val * 4096 + (c.val * 32 + e.val) = (p.val * 128 + c.val) * 32 + e.val
        omega)

/-! ## One run's update of the running maximum -/

/-- The running maximum `acc` combined with the best matches over one run `dj` of document tokens. -/
def step {F : FTy → Type} [FloatOps F] (q2 : FVec F S256x128 .bf16) (dj : Vec F S128x32x128 .f32) (acc : Vec F S256x128 .f32) :
    FVec F S256x128 .f32 :=
  shapeCast S256x128
    (maximumf acc
      (multiReduction .maximumf [2] S256x128
        (shapeCast S256x128x32
          (matmul dot_S256x128_S4096x128_S256x4096_1_1_0_0_n_n none q2
            (shapeCast S4096x128 (truncf .bf16 dj bitsLt_bf16_f32) shapeCasts_S128x32x128_S4096x128)
            (constant S256x4096 .f32 0x00000000#32))
          shapeCasts_S256x4096_S256x128x32)
        0xFF800000#32 reduces_S256x128x32_S256x128 (.inl rfl) rfl))
    shapeCasts_S256x128_S256x128

theorem pay6_eq {F : FTy → Type} [FloatOps F] (x0 : Vec F S8x32x128 .f32) (v7 : Vec F S128x32x128 .f32) (v13 : Vec F S256x128 .f32) :
    k0_pay6 x0 v7 v13 = step (k0_pay4 x0) v7 v13 := rfl
theorem pay7_eq {F : FTy → Type} [FloatOps F] (x0 : Vec F S8x32x128 .f32) (v18 : Vec F S128x32x128 .f32) (v24 : Vec F S256x128 .f32) :
    k0_pay7 x0 v18 v24 = step (k0_pay4 x0) v18 v24 := rfl
theorem pay1_eq {F : FTy → Type} [FloatOps F] (v2 : FVec F S256x128 .bf16) (v29 : Vec F S128x32x128 .f32) (v35 : Vec F S256x128 .f32) :
    k0_pay1 v2 v29 v35 = step v2 v29 v35 := rfl
theorem pay2_eq {F : FTy → Type} [FloatOps F] (v2 : FVec F S256x128 .bf16) (v40 : Vec F S128x32x128 .f32) (v46 : Vec F S256x128 .f32) :
    k0_pay2 v2 v40 v46 = step v2 v40 v46 := rfl

/-- A maximum reduction over one axis from the word of minus infinity, at the extended reals: the maximum, from the
    bottom element, over that axis's coordinates. -/
theorem max_single {s t : Shape} {a : Fin s.rank} (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j
      = (Finset.univ : Finset (Fin (s.size a))).fold max ⊥ (src ∘ h.lift j) :=
  (Ideal.multiReduction_maximumf_single src 0xFF800000#32 h hφ hacc j).trans
    (by rw [show FloatOps.ofBits (F := Ideal) .f32 0xFF800000#32 = (⊥ : EReal) from ofBits_neg_inf])

theorem lift_run (p : Fin 256) (c : Fin 128) (e : Fin 32) :
    reduces_S256x128x32_S256x128.lift (ix2 p c) e = ix3 p c e :=
  funext fun a => Fin.ext (by match a with | ⟨0, _⟩ => rfl | ⟨1, _⟩ => rfl | ⟨2, _⟩ => rfl)

/-- At token row `p` and candidate `c`: the old value against the maximum, over the run's 32 tokens, of the
    row's inner products with the candidate's tokens. -/
theorem step_apply (q2 : FVec Ideal S256x128 .bf16) (dj : Vec Ideal S128x32x128 .f32) (acc : Vec Ideal S256x128 .f32)
    (p : Fin 256) (c : Fin 128) :
    step q2 dj acc (ix2 p c)
      = max (acc (ix2 p c))
          ((Finset.univ : Finset (Fin 32)).fold max ⊥ fun e => ∑ h : Fin 128, q2 (ix2 p h) * dj (ix3 c e h)) := by
  unfold step
  rw [shapeCast_self]
  refine congrArg (max (acc (ix2 p c))) ?_
  refine (max_single _ reduces_S256x128x32_S256x128 _ _ (ix2 p c)).trans ?_
  refine Finset.fold_congr fun (e : Fin 32) _ => ?_
  show shapeCast S256x128x32 _ shapeCasts_S256x4096_S256x128x32 (reduces_S256x128x32_S256x128.lift (ix2 p c) e) = _
  rw [lift_run p c e, regroup_apply, rows_product_apply]
  exact Finset.sum_congr rfl fun h _ => by rw [doc_rows_apply]

/-! ## The four runs together -/

/-- The running maximum starts at minus infinity. -/
theorem start_apply (p : Fin 256) (c : Fin 128) : k0_pay5 (F := Ideal) (ix2 p c) = (⊥ : EReal) := by
  unfold k0_pay5
  rw [shapeCast_self]
  exact ofBits_neg_inf

/-- A run of 32 document tokens from position `o`: its token `e` is document token o + e. -/
theorem doc_run_apply (x1 : Vec Ideal S128x128x128 .f32) (o : Nat) (ho : o + 32 ≤ 128)
    (inb : ∀ a, (![0, o, 0] : Fin 3 → Nat) a + S128x32x128.size a ≤ S128x128x128.size a)
    (c : Fin 128) (e : Fin 32) (h : Fin 128) :
    View.ld x1 (Rect.unit (s := S128x128x128) ![0, o, 0] S128x32x128.size inb) (ix3 c e h)
      = x1 (ix3 c ⟨o + e.val, by have := e.isLt; omega⟩ h) :=
  congrArg x1 (funext fun a => Fin.ext (by
    match a with
    | ⟨0, _⟩ => show 0 + 1 * c.val = c.val; omega
    | ⟨1, _⟩ => show o + 1 * e.val = o + e.val; omega
    | ⟨2, _⟩ => show 0 + 1 * h.val = h.val; omega))

/-- The inner products of one query token with one run of a candidate's document tokens are the values
    of `tokenSim` on that run. -/
theorem run_eq (x0 : Vec Ideal S8x32x128 .f32) (x1 : Vec Ideal S128x128x128 .f32) (b : Fin 8) (s : Fin 32) (c : Fin 128)
    (o : Nat) (ho : o + 32 ≤ 128)
    (inb : ∀ a, (![0, o, 0] : Fin 3 → Nat) a + S128x32x128.size a ≤ S128x128x128.size a) :
    (fun e : Fin 32 => ∑ h : Fin 128, x0 (ix3 b s h) * View.ld x1 (Rect.unit (s := S128x128x128) ![0, o, 0] S128x32x128.size inb) (ix3 c e h))
      = run32 (tokenSim (fun h => x0 (ix3 b s h)) x1 c) o ho := by
  funext e
  unfold run32 tokenSim
  exact Finset.sum_congr rfl fun h _ => by rw [doc_run_apply x1 o ho inb c e h]

/-- After the four runs the running maximum at token row (b, s) and candidate c is that token's best match
    among all 128 document tokens of c. -/
theorem best4_apply (x0 : Vec Ideal S8x32x128 .f32) (x1 : Vec Ideal S128x128x128 .f32)
    (b : Fin 8) (s : Fin 32) (c : Fin 128) :
    best4 (F := Ideal) x0 x1 (ix2 (tokenRow b s) c) = bestMatch (fun h => x0 (ix3 b s h)) x1 c := by
  unfold best4 best3 best2 best1
  rw [pay2_eq, pay1_eq, pay7_eq, pay6_eq]
  rw [step_apply, step_apply, step_apply, step_apply, start_apply]
  simp only [token_rows_apply, docRun0, docRun1, docRun2, docRun3]
  rw [run_eq x0 x1 b s c 0 (by decide), run_eq x0 x1 b s c 32 (by decide), run_eq x0 x1 b s c 64 (by decide),
    run_eq x0 x1 b s c 96 (by decide)]
  exact runs_max (tokenSim (fun h => x0 (ix3 b s h)) x1 c)

/-! ## The tile -/

/-- The tile from the final running maximum: sum over each query's 32 token rows, divide by 32.0 and by the
    temperature. -/
def tile {F : FTy → Type} [FloatOps F] (v : Vec F S256x128 .f32) : FVec F S8x128 .f32 :=
  divf
    (divf
      (multiReduction .add [1] S8x128 (shapeCast S8x32x128 v shapeCasts_S256x128_S8x32x128) 0x00000000#32
        reduces_S8x32x128_S8x128 (.inl rfl) rfl)
      (broadcast S8x128 (Scalar.ofBits .f32 0x42000000#32)))
    (broadcast S8x128 (Scalar.ofBits .f32 0x3D4CCCCD#32))

theorem pay3_eq {F : FTy → Type} [FloatOps F] (v : Vec F S256x128 .f32) : k0_pay3 v = tile v := rfl

/-- A sum reduction over one axis from the zero word, at the extended reals: the sum over that axis's
    coordinates. -/
theorem add_single {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

theorem lift_token (b : Fin 8) (c : Fin 128) (s : Fin 32) :
    reduces_S8x32x128_S8x128.lift (ix2 b c) s = ix3 b s c :=
  funext fun a => Fin.ext (by match a with | ⟨0, _⟩ => rfl | ⟨1, _⟩ => rfl | ⟨2, _⟩ => rfl)

theorem tile_apply (v : FVec Ideal S256x128 .f32) (b : Fin 8) (c : Fin 128) :
    tile (F := Ideal) v (ix2 b c)
      = Ideal.div (Ideal.div (∑ s : Fin 32, v (ix2 (tokenRow b s) c)) (Ideal.ofBits .f32 0x42000000#32))
          (Ideal.ofBits .f32 0x3D4CCCCD#32) := by
  have hs : ∀ w : BitVec 32, Scalar.ofBits (F := Ideal) .f32 w = Ideal.ofBits .f32 w := fun _ => rfl
  unfold tile
  simp only [divf_apply, broadcast_apply, hs]
  refine congrArg (fun z => Ideal.div (Ideal.div z (Ideal.ofBits .f32 0x42000000#32)) (Ideal.ofBits .f32 0x3D4CCCCD#32)) ?_
  refine (add_single _ reduces_S8x32x128_S8x128 _ _ (ix2 b c)).trans (Finset.sum_congr rfl fun (s : Fin 32) _ => ?_)
  show shapeCast S8x32x128 v shapeCasts_S256x128_S8x32x128 (reduces_S8x32x128_S8x128.lift (ix2 b c) s) = _
  rw [lift_token b c s]
  exact shapeCast_apply v shapeCasts_S256x128_S8x32x128 _ (ix2 (tokenRow b s) c)
    (by rw [Shape.rowMajor_val_three, Shape.rowMajor_val_two]; rfl)

/-- The score tile of a query block and the document block, at its query `b` and candidate `c`. -/
theorem tileOf_apply (x0 : Vec Ideal S8x32x128 .f32) (x1 : Vec Ideal S128x128x128 .f32) (b : Fin 8) (c : Fin 128) :
    tileOf (F := Ideal) x0 x1 (ix2 b c)
      = Ideal.div (Ideal.div (∑ s : Fin 32, bestMatch (fun h => x0 (ix3 b s h)) x1 c) (Ideal.ofBits .f32 0x42000000#32))
          (Ideal.ofBits .f32 0x3D4CCCCD#32) := by
  unfold tileOf
  rw [pay3_eq, tile_apply]
  simp only [best4_apply]

end Cert.KernelIdeal.Tile

end
-- ==== Proof.LossTail.lean ====
/-
  From the score matrix to the loss: the row-wise log-softmax, then minus the mean of column 0 (the
  cross-entropy against label 0 for every query).  Both programs apply exactly these operations, in this order
  and with these constants, to their score matrices; the equivalence proof never looks inside.
-/
import proofs.«169113_j74878459838967_1_alg».proof.KernelIdeal
import Idealize.ShloMosaic.PureOps.Ideal

noncomputable section

namespace Cert.KernelIdeal.Loss

open Idealize.ShloMosaic Cert.KernelIdeal
open Cert.KernelIdeal.Facts₀ Cert.KernelIdeal.Facts

variable [Cert.KernelIdeal.Facts]

/-- The row maximum, floored at minus infinity. -/
def rowMax (z : FVec Ideal S64x128 .f32) : FVec Ideal S64 .f32 :=
  maximumf (broadcastInDim S64 ![] bcast_S_S64 (constant (F := Ideal) S_ .f32 0xFF800000#32))
    (Host.reduce (FloatOps.maximumf (F := Ideal)) z (constant (F := Ideal) S_ .f32 0xFF800000#32) reducesTo_S64x128_S64_d1 h_S_)

/-- The scores shifted by their row maximum. -/
def shifted (z : FVec Ideal S64x128 .f32) : FVec Ideal S64x128 .f32 :=
  subf z (broadcastInDim S64x128 ![0, 1] bcast_S64x1_S64x128_0_1 (broadcastInDim S64x1 ![0] bcast_S64_S64x1_0 (rowMax z)))

/-- The logarithm of each row's sum of exponentials, as a column. -/
def logSumExp (z : FVec Ideal S64x128 .f32) : FVec Ideal S64x1 .f32 :=
  Host.log (F := Ideal) (broadcastInDim S64x1 ![0] bcast_S64_S64x1_0
    (Host.reduceAdd (F := Ideal) (Host.exp (F := Ideal) (shifted z)) (constant (F := Ideal) S_ .f32 0x00000000#32) reducesTo_S64x128_S64_d1 h_S_))

/-- The row-wise log-softmax. -/
def logSoftmax (z : FVec Ideal S64x128 .f32) : FVec Ideal S64x128 .f32 :=
  subf (shifted z) (broadcastInDim S64x128 ![0, 1] bcast_S64x1_S64x128_0_1 (logSumExp z))

/-- Minus the mean over the 64 queries of the log-probability of candidate 0. -/
def lossOf (z : FVec Ideal S64x128 .f32) : FVec Ideal S_ .f32 :=
  Host.negf (F := Ideal) (Host.divf (F := Ideal)
    (Host.reduceAdd (F := Ideal)
      (shapeCast S64 (extractStridedSlice S64x1 ![0, 0] (logSoftmax z) slices_S64x128_S64x1_0_0) shapeCasts_S64x1_S64)
      (constant (F := Ideal) S_ .f32 0x00000000#32) reducesTo_S64_S_d0 h_S_)
    (constant (F := Ideal) S_ .f32 0x42800000#32))

end Cert.KernelIdeal.Loss

end
-- ==== Proof.KernelScores.lean ====
/-
  The kernel's score matrix, and from it the kernel's result.

  Grid point t is handed queries 8t … 8t+7 (all their tokens and coordinates) and the whole document array, and
  writes rows 8t … 8t+7 of the score matrix.  By the tile's entry-by-entry value each such row block is the
  corresponding block of `score` of the two argument arrays; the eight blocks tile the matrix, so after the
  region the matrix is `score`.  The host operations after the region then apply `lossOf` to it.
-/
import proofs.«169113_j74878459838967_1_alg».proof.Proof.Gen.KernelIdeal.Frame
import proofs.«169113_j74878459838967_1_alg».proof.Proof.BodyRun
import proofs.«169113_j74878459838967_1_alg».proof.Proof.TileValue
import proofs.«169113_j74878459838967_1_alg».proof.Proof.MaxSimSpec
import proofs.«169113_j74878459838967_1_alg».proof.Proof.LossTail
import Idealize.ShloMosaic.Lib.Pipeline.Value
import Idealize.ShloMosaic.Lib.StableHlo.Run

set_option maxRecDepth 16384

noncomputable section

namespace Cert.KernelIdeal.Scores

open Idealize.ShloMosaic Idealize.ShloMosaic.TcCoe Idealize.ShloMosaic.ValueIdx
open Idealize.SL Idealize.SL.Sem
open Cert.KernelIdeal Cert.KernelIdeal.Gen Cert.KernelIdeal.Body Cert.KernelIdeal.Tile Cert.LateInteraction

variable (m : (ℓ : Loc nD τ sig) → Buf (Elt Ideal) ℓ) (ρ : Dev nD → PrngReg)

/-- The two argument arrays as the region finds them, and the two blocks grid point `t` is handed. -/
abbrev queries (c : Dev nD) : Vec Ideal S64x32x128 .f32 := V m c main_arg0
abbrev docs (c : Dev nD) : Vec Ideal S128x128x128 .f32 := V m c main_arg1
abbrev queryBlock (c : Dev nD) (t : Fin cfg0.N) : Vec Ideal S8x32x128 .f32 := iblk m c 0 t
abbrev docBlock (c : Dev nD) (t : Fin cfg0.N) : Vec Ideal S128x128x128 .f32 := iblk m c 1 t

/-- The printed index maps over the grid: the query window and the score window sit at block t along their first
    axis and at block 0 elsewhere; the document window is always the whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem queryBlock_apply (c : Dev nD) (t : Fin cfg0.N) (b : Fin 8) (s : Fin 32) (h : Fin 128) (i : S64x32x128.Idx)
    (h0 : (i 0).val = t.val * 8 + b.val) (h1 : (i 1).val = s.val) (h2 : (i 2).val = h.val) :
    queryBlock m c t (ix3 b s h) = queries m c i := by
  show V m c main_arg0 (((cfg0.win 0).blk t).view.emb (ix3 b s h)) = V m c main_arg0 i
  refine congrArg _ (funext fun a => Fin.ext ?_)
  obtain ⟨e0, e1, e2, -, -, -, -, -⟩ := idx_facts t
  match a with
  | ⟨0, _⟩ => show win0_0.index t (0 : Fin 3) * 8 + 1 * b.val = (i 0).val; omega
  | ⟨1, _⟩ => show win0_0.index t (1 : Fin 3) * 32 + 1 * s.val = (i 1).val; omega
  | ⟨2, _⟩ => show win0_0.index t (2 : Fin 3) * 128 + 1 * h.val = (i 2).val; omega

theorem docBlock_eq (c : Dev nD) (t : Fin cfg0.N) : docBlock m c t = docs m c := by
  funext y
  show V m c main_arg1 (((cfg0.win 1).blk t).view.emb y) = V m c main_arg1 y
  refine congrArg _ (funext fun a => Fin.ext ?_)
  obtain ⟨-, -, -, e0, e1, e2, -, -⟩ := idx_facts t
  match a with
  | ⟨0, _⟩ => show win0_1.index t (0 : Fin 3) * 128 + 1 * (y 0).val = (y 0).val; omega
  | ⟨1, _⟩ => show win0_1.index t (1 : Fin 3) * 128 + 1 * (y 1).val = (y 1).val; omega
  | ⟨2, _⟩ => show win0_1.index t (2 : Fin 3) * 128 + 1 * (y 2).val = (y 2).val; omega

theorem row_lt (n : Nat) (hn : n < 8) (b : Fin 8) : n * 8 + b.val < 64 := by have := b.isLt; omega

/-- A tile entry is the score-matrix entry eight rows per grid point further down. -/
theorem tile_entry (x0 : Vec Ideal S8x32x128 .f32) (x1 : Vec Ideal S128x128x128 .f32)
    (q : Vec Ideal S64x32x128 .f32) (n : Nat) (hn : n < 8)
    (hq : ∀ (b : Fin 8) (s : Fin 32) (h : Fin 128), x0 (ix3 b s h) = q (ix3 ⟨n * 8 + b.val, row_lt n hn b⟩ s h))
    (j : S8x128.Idx) (i : S64x128.Idx) (h0 : (i 0).val = n * 8 + (j 0).val) (h1 : (i 1).val = (j 1).val) :
    tileOf (F := Ideal) x0 x1 j = score q x1 i := by
  obtain ⟨b, c, rfl⟩ : ∃ (b : Fin 8) (c : Fin 128), j = ix2 b c := ⟨j 0, j 1, eq_ix2 j⟩
  obtain ⟨b', c', rfl⟩ : ∃ (b' : Fin 64) (c' : Fin 128), i = ix2 b' c' := ⟨i 0, i 1, eq_ix2 i⟩
  obtain rfl : b' = ⟨n * 8 + b.val, row_lt n hn b⟩ := Fin.ext h0
  obtain rfl : c' = c := Fin.ext h1
  rw [tileOf_apply, score_ix2]
  unfold scoreAt
  simp only [hq]

/-- WHAT POINT `t` WRITES BACK is block `t` of the score matrix of the two argument arrays. -/
theorem flushed_eq (c : Dev nD) (t : Fin cfg0.N) :
    (dats m 0 c).flushed 2 t = ((cfg0.win 2).blk t).view.read (Elt Ideal) (score (queries m c) (docs m c)) := by
  show (cfg0.win 2).cut (grid0.coords t) ((dats m 0 c).after 2 t) = _
  rw [after0_2]
  unfold outsAt0
  rw [out_eq]
  funext j
  show tileOf (queryBlock m c t) (docBlock m c t) j = score (queries m c) (docs m c) (((cfg0.win 2).blk t).view.emb j)
  rw [docBlock_eq]
  have ht : t.val < 8 := lt_of_lt_of_eq t.isLt N_0
  obtain ⟨-, -, -, -, -, -, e0, e1⟩ := idx_facts t
  refine tile_entry (queryBlock m c t) (docs m c) (queries m c) t.val ht
    (fun b s h => queryBlock_apply m c t b s h _ rfl rfl rfl) j _ ?_ ?_
  · show win0_2.index t (0 : Fin 2) * 8 + 1 * (j 0).val = t.val * 8 + (j 0).val; omega
  · show win0_2.index t (1 : Fin 2) * 128 + 1 * (j 1).val = (j 1).val; omega

/-- An index of the score matrix is in point `t`'s block iff each coordinate is in the block's range. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Row r of the score matrix is written by point r / 8. -/
theorem cover (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  have hN : cfg0.N = 8 := N_0
  refine ⟨⟨(i 0).val / 8, by rw [hN]; omega⟩, flush0_2 _, ?_⟩
  rw [mem_blk]
  obtain ⟨-, -, -, -, -, -, e0, e1⟩ := idx_facts ⟨(i 0).val / 8, by rw [hN]; omega⟩
  intro a
  match a with
  | ⟨0, _⟩ =>
    show win0_2.index _ (0 : Fin 2) * 8 ≤ (i 0).val ∧ (i 0).val < win0_2.index _ (0 : Fin 2) * 8 + 8
    rw [e0]; show (i 0).val / 8 * 8 ≤ (i 0).val ∧ (i 0).val < (i 0).val / 8 * 8 + 8; omega
  | ⟨1, _⟩ =>
    show win0_2.index _ (1 : Fin 2) * 128 ≤ (i 1).val ∧ (i 1).val < win0_2.index _ (1 : Fin 2) * 128 + 128
    rw [e1]; omega

/-- THE SCORE MATRIX after the region. -/
theorem final (c : Dev nD) : (dats m 0 c).arrAt 2 cfg0.N = score (queries m c) (docs m c) :=
  (dats m 0 c).arrAt_eq_of_cover 2 (score (queries m c) (docs m c)) (fun t _ => flushed_eq m c t) (cover)

end Cert.KernelIdeal.Scores

end
-- ==== Proof.KernelLoss.lean ====
/-
  The kernel's result: after the region the score matrix is `score` of the two argument arrays, and the host
  operations that follow — the row-wise log-softmax, column 0, minus its mean — are `lossOf`.  So every run of the
  idealized kernel ends with `lossOf (score queries docs)` in its result buffer and its arguments unchanged.
-/
import proofs.«169113_j74878459838967_1_alg».proof.Proof.KernelScores

set_option maxRecDepth 16384

noncomputable section

namespace Cert.KernelIdeal.Scores

open Idealize.ShloMosaic Idealize.ShloMosaic.TcCoe Idealize.ShloMosaic.StableHlo
open Idealize.SL Idealize.SL.Sem
open Cert.KernelIdeal Cert.KernelIdeal.Gen Cert.LateInteraction

variable (m : (ℓ : Loc nD τ sig) → Buf (Elt Ideal) ℓ) (ρ : Dev nD → PrngReg)

/-- The host operations after the region compute `lossOf` of whatever the score matrix's buffer holds. -/
theorem tail_is_loss (c : Dev nD) :
    Pipeline.afterTail₀ cfgs (dats m) 0 (V0 m) [hostOps1, hostOps1_1] c main_v6
      = Loss.lossOf (Pipeline.withArrays spec0 c (V0 m c) (fun w => (dats m 0 c).arrAt w cfg0.N) (Proc.devRef .tc main_v0)) := by
  unfold Pipeline.afterTail₀
  simp only [hostOps1, hostOps1_1, List.flatten_cons, List.flatten_nil, List.append_nil, List.cons_append, List.nil_append]
  after_results
  rfl

/-- … and that buffer holds the score matrix. -/
theorem tail_eq (c : Dev nD) :
    Pipeline.afterTail₀ cfgs (dats m) 0 (V0 m) [hostOps1, hostOps1_1] c main_v6
      = Loss.lossOf (score (queries m c) (docs m c)) :=
  (tail_is_loss m c).trans (congrArg Loss.lossOf
    ((Pipeline.withArrays_arr spec0 launch0.win.arr_inj c _ _ 2).trans (final m c)))

/-- Every weakly fair execution of the idealized kernel terminates with the loss of the score matrix in its result
    and its two arguments unchanged. -/
theorem run : θ_run defs (onTc (τ := τ) (main (F := Ideal))) ⟨m, fun _ => 0, ρ⟩ fun r => ∀ c : Dev nD,
      r.2.mem ((c.tc : Thread nD τ).loc main_v6) = Loss.lossOf (score (queries m c) (docs m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v6 (Pipeline.mem_restRefs_of main_v6 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Scores

end
-- ==== Proof.ReferenceScores.lean ====
/-
  The reference's score matrix is the late-interaction score.

  The reference forms all token similarities at once as one contraction over the embedding coordinate, laid out
  [candidate, document token, query, query token], transposes it to [query, candidate, query token, document token],
  takes the maximum over the document tokens, sums over the query tokens and divides by 32.0 and by the temperature.
  Entry by entry that is `score`: each similarity is the same sum of products with the factors in the other
  order.
-/
import proofs.«169113_j74878459838967_1_alg».proof.Proof.Gen.ReferenceIdeal.Read
import proofs.«169113_j74878459838967_1_alg».proof.Proof.MaxSimSpec

noncomputable section

namespace Cert.ReferenceIdeal.Scores

open Idealize.ShloMosaic Idealize.ShloMosaic.ValueIdx
open Cert.ReferenceIdeal Cert.ReferenceIdeal.Gen Cert.ReferenceIdeal.Read Cert.LateInteraction

theorem reduces_tokens : S64x128x32x128.Reduces [3] S64x128x32 := by decide

/-- The transposed similarity array at [query b, candidate c, query token s, document token t]. -/
theorem sims_apply (x0 : FVec Ideal S64x32x128 .f32) (x1 : FVec Ideal S128x128x128 .f32)
    (b : Fin 64) (c : Fin 128) (s : Fin 32) (t : Fin 128) :
    val_main_v1 (F := Ideal) x0 x1 (reduces_tokens.lift (ix3 b c s) t) = tokenSim (fun h => x0 (ix3 b s h)) x1 c t := by
  rw [val_main_v1_apply, val_main_v0_apply]
  unfold tokenSim
  refine Finset.sum_congr rfl fun h _ => ?_
  rw [mul_comm]
  have el : lidx_main_v0 (idx_main_v1 (reduces_tokens.lift (ix3 b c s) t)) h = ix3 c t h :=
    funext fun a => Fin.ext (by match a with | ⟨0, _⟩ => rfl | ⟨1, _⟩ => rfl | ⟨2, _⟩ => rfl)
  have er : ridx_main_v0 (idx_main_v1 (reduces_tokens.lift (ix3 b c s) t)) h = ix3 b s h :=
    funext fun a => Fin.ext (by match a with | ⟨0, _⟩ => rfl | ⟨1, _⟩ => rfl | ⟨2, _⟩ => rfl)
  rw [el, er]

/-- The maximum over the document tokens is the query token's best match. -/
theorem best_apply (x0 : FVec Ideal S64x32x128 .f32) (x1 : FVec Ideal S128x128x128 .f32)
    (b : Fin 64) (c : Fin 128) (s : Fin 32) :
    val_main_v2 (F := Ideal) x0 x1 (ix3 b c s) = bestMatch (fun h => x0 (ix3 b s h)) x1 c := by
  unfold val_main_v2
  rw [Host.reduce_eq_fold_single (a := 3) FloatOps.maximumf _ _ reducesTo_S64x128x32x128_S64x128x32_d3 reduces_tokens]
  unfold bestMatch
  have h0 : val_main_cst (F := Ideal) (Shape.Idx.first h_S_) = (⊥ : EReal) := ofBits_neg_inf
  rw [h0]
  exact Finset.fold_congr (fun t _ => sims_apply x0 x1 b c s t)

/-- The reference's scores are `score` of the two arguments. -/
theorem scores_eq (x0 : FVec Ideal S64x32x128 .f32) (x1 : FVec Ideal S128x128x128 .f32) :
    val_main_v7 (F := Ideal) x0 x1 = score x0 x1 := by
  funext i
  obtain ⟨b, c, rfl⟩ : ∃ (b : Fin 64) (c : Fin 128), i = ix2 b c := ⟨i 0, i 1, eq_ix2 i⟩
  rw [val_main_v7_apply, val_main_v5_apply, val_main_v3_apply, val_main_v6_apply, val_main_v4_apply,
    val_main_cst_2_apply, val_main_cst_1_apply, val_main_cst_0_apply, score_ix2]
  unfold scoreAt
  simp only [Ideal.hostDivf_def, Ideal.ofBits_def, Ideal.ofBits_zero_f32, zero_add]
  have hs : (∑ k : Fin 32, val_main_v2 (F := Ideal) x0 x1 (idx_main_v3 (ix2 b c) k))
      = ∑ s : Fin 32, bestMatch (fun h => x0 (ix3 b s h)) x1 c :=
    Finset.sum_congr rfl fun s _ => by
      have e : idx_main_v3 (ix2 b c) s = ix3 b c s :=
        funext fun a => Fin.ext (by match a with | ⟨0, _⟩ => rfl | ⟨1, _⟩ => rfl | ⟨2, _⟩ => rfl)
      rw [e]
      exact best_apply x0 x1 b c s
  rw [hs]

end Cert.ReferenceIdeal.Scores

end
-- ==== Proof.ReferenceLoss.lean ====
/-
  The reference's result is the loss of its score matrix: after the scores it applies the row-wise log-softmax
  and takes minus the mean of column 0, the very operations `lossOf` names.
-/
import proofs.«169113_j74878459838967_1_alg».proof.Proof.Gen.ReferenceIdeal.Read
import proofs.«169113_j74878459838967_1_alg».proof.Proof.Gen.KernelIdeal
import proofs.«169113_j74878459838967_1_alg».proof.Proof.LossTail

noncomputable section

namespace Cert.ReferenceIdeal.Scores

open Idealize.ShloMosaic
open Cert.ReferenceIdeal Cert.ReferenceIdeal.Gen Cert.ReferenceIdeal.Read

theorem result_eq_loss (x0 : FVec Ideal S64x32x128 .f32) (x1 : FVec Ideal S128x128x128 .f32) :
    val_main_v13 (F := Ideal) x0 x1 = Cert.KernelIdeal.Loss.lossOf (val_main_v7 (F := Ideal) x0 x1) := rfl

end Cert.ReferenceIdeal.Scores

end
-- ==== Proof.lean ====
/-
  The certificate's five claims for the late-interaction ranking loss.

  Both programs compute, over the extended reals, minus the mean over the 64 queries of the log-softmax score of
  candidate 0, where the score of a query against a candidate is the mean over the query's 32 tokens of the
  token's largest inner product with the candidate's 128 document tokens, divided by the temperature.

  The reference forms every token similarity in one contraction and takes the maximum over all 128 document
  tokens at once.  The kernel works on 8 queries per grid point and walks the document tokens in four runs of
  32, keeping a running maximum that starts at minus infinity; a maximum over 128 values is the maximum of the four
  runs' maxima, the similarities themselves are the same sums of the same products (commuted), and a change of
  float format is the identity over the extended reals.  So the two score matrices are one function of the
  arguments (`LateInteraction.score`), and the log-softmax and the mean that both programs apply afterwards are
  one function of the score matrix (`Loss.lossOf`), never opened.  No law used needs the inputs finite.

  The three frame claims: the two kernel programs run and keep their arguments by their frame certificates; the
  reference by its run.  The idealization rewrote nothing, so the fourth claim holds trivially.
-/
import proofs.«169113_j74878459838967_1_alg».proof.Defs
import proofs.«169113_j74878459838967_1_alg».proof.Proof.Gen.Kernel
import proofs.«169113_j74878459838967_1_alg».proof.Proof.Gen.Kernel.Skeleton
import proofs.«169113_j74878459838967_1_alg».proof.Proof.Gen.Kernel.Launch
import proofs.«169113_j74878459838967_1_alg».proof.Proof.Gen.Kernel.Points
import proofs.«169113_j74878459838967_1_alg».proof.Proof.Gen.Kernel.Frame
import proofs.«169113_j74878459838967_1_alg».proof.Proof.Gen.KernelIdeal
import proofs.«169113_j74878459838967_1_alg».proof.Proof.Gen.KernelIdeal.Skeleton
import proofs.«169113_j74878459838967_1_alg».proof.Proof.Gen.KernelIdeal.Launch
import proofs.«169113_j74878459838967_1_alg».proof.Proof.Gen.KernelIdeal.Points
import proofs.«169113_j74878459838967_1_alg».proof.Proof.Gen.KernelIdeal.Frame
import proofs.«169113_j74878459838967_1_alg».proof.Proof.Gen.ReferenceIdeal
import proofs.«169113_j74878459838967_1_alg».proof.Proof.Gen.Pre_finite_inputs
import proofs.«169113_j74878459838967_1_alg».proof.Proof.Gen.ReferenceIdeal.Run
import proofs.«169113_j74878459838967_1_alg».proof.Proof.Gen.ReferenceIdeal.Read
import proofs.«169113_j74878459838967_1_alg».proof.Proof.KernelLoss
import proofs.«169113_j74878459838967_1_alg».proof.Proof.ReferenceScores
import proofs.«169113_j74878459838967_1_alg».proof.Proof.ReferenceLoss
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the one score matrix of the (agreeing) arguments. -/
theorem algebraic : Cert.algebraic_KernelIdeal_ReferenceIdeal := by
  intro m ρ m' ρ' _ hagree
  refine ⟨fun c => Cert.KernelIdeal.Loss.lossOf
      (Cert.LateInteraction.score (Cert.KernelIdeal.Scores.queries m c) (Cert.KernelIdeal.Scores.docs m c)),
    Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.Scores.result_eq_loss,
    Cert.ReferenceIdeal.Scores.scores_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
